-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "pos_big" .f32 0x7149F2CA#32 ⊤
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536 : Shape := ⟨1, ![65536]⟩
abbrev S2048x64 : Shape := ⟨2, ![2048, 64]⟩
abbrev S2048 : Shape := ⟨1, ![2048]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S65536x64 .f32) (main_arg1 : IVec S65536 32) (main_arg2 : FVec F S2048x64 .f32) (main_arg3 : IVec S2048 32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S2048x64 .f32 := Host.absf main_arg2
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S65536x64 : Shape := ⟨2, ![65536, 64]⟩
abbrev S65536 : Shape := ⟨1, ![65536]⟩
abbrev S2048x64 : Shape := ⟨2, ![2048, 64]⟩
abbrev S2048 : Shape := ⟨1, ![2048]⟩
abbrev S64x8x128 : Shape := ⟨3, ![64, 8, 128]⟩
abbrev S1024x64 : Shape := ⟨2, ![1024, 64]⟩
abbrev S1024 : Shape := ⟨1, ![1024]⟩
abbrev S1x8x128 : Shape := ⟨3, ![1, 8, 128]⟩
abbrev S1024x1 : Shape := ⟨2, ![1024, 1]⟩
abbrev S1024x2048 : Shape := ⟨2, ![1024, 2048]⟩
abbrev S1x2048 : Shape := ⟨2, ![1, 2048]⟩
abbrev S1x1024x1 : Shape := ⟨3, ![1, 1024, 1]⟩
abbrev S1 : Shape := ⟨1, ![1]⟩
abbrev S1x1x1 : Shape := ⟨3, ![1, 1, 1]⟩
abbrev S8x128 : Shape := ⟨2, ![8, 128]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S65536x64, .f32⟩
  | .hbm, ⟨1, _⟩ => ⟨S65536, .i32⟩
  | .hbm, ⟨2, _⟩ => ⟨S2048x64, .f32⟩
  | .hbm, ⟨3, _⟩ => ⟨S2048, .i32⟩
  | .hbm, ⟨4, _⟩ => ⟨S64x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S1024, .i32⟩
  | .local _ .vmem, ⟨3, _⟩ => ⟨S1024, .i32⟩
  | .local _ .vmem, ⟨4, _⟩ => ⟨S2048x64, .f32⟩
  | .local _ .vmem, ⟨5, _⟩ => ⟨S2048, .i32⟩
  | .local _ .vmem, ⟨6, _⟩ => ⟨S1x8x128, .f32⟩
  | .local _ .vmem, ⟨7, _⟩ => ⟨S1x8x128, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  reduces_S1024x64_S1024 : S1024x64.Reduces [1] S1024
  shapeCasts_S1024_S1024x1 : S1024.ShapeCasts S1024x1
  reduces_S2048x64_S2048 : S2048x64.Reduces [1] S2048
  bitsLt_bf16_f32 : FTy.bits .bf16 < FTy.bits .f32
  shapeCasts_S2048_S1x2048 : S2048.ShapeCasts S1x2048
  broadcasts_S1024x1_S1024x2048 : S1024x1.Broadcasts S1024x2048
  broadcasts_S1x2048_S1024x2048 : S1x2048.Broadcasts S1024x2048
  inb_S1024_S1024_0 : ∀ a, (![0] : Fin 1 → Nat) a + S1024.size a ≤ S1024.size a
  h_S1024 : 0 < S1024.numel
  inb_S2048_S2048_0 : ∀ a, (![0] : Fin 1 → Nat) a + S2048.size a ≤ S2048.size a
  h_S2048 : 0 < S2048.numel
  reduces_S1024x2048_S1024 : S1024x2048.Reduces [1] S1024
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S64x8x128_S_d0_1_2 : S64x8x128.ReducesTo [0, 1, 2] S_
  h_S_ : 0 < S_.numel
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S65536.size a
  hwx0_1 : ∀ i : grid0.Coords, EltTy.bits .i32 = 32 ∨ (Rect.block (s := S65536) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .i32 = 32 ∨ (Rect.block (s := S2048) S2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S64x8x128.size a
  hwx0_4 : ∀ i : grid0.Coords, EltTy.bits .f32 = 32 ∨ (Rect.block (s := S64x8x128) S1x8x128.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536 : Shape := ⟨1, ![65536]⟩
abbrev S2048x64 : Shape := ⟨2, ![2048, 64]⟩
abbrev S2048 : Shape := ⟨1, ![2048]⟩
abbrev S_ : Shape := ⟨0, ![]⟩
abbrev S65536x1 : Shape := ⟨2, ![65536, 1]⟩
abbrev S1x2048 : Shape := ⟨2, ![1, 2048]⟩
abbrev S65536x2048 : Shape := ⟨2, ![65536, 2048]⟩
abbrev S64x2048 : Shape := ⟨2, ![64, 2048]⟩

abbrev nBuf : Space → Nat
  | .hbm => 58
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536, .i32⟩
  | .hbm, ⟨2, _⟩ => ⟨S2048x64, .f32⟩
  | .hbm, ⟨3, _⟩ => ⟨S2048, .i32⟩
  | .hbm, ⟨4, _⟩ => ⟨S_, .f32⟩
  | .hbm, ⟨5, _⟩ => ⟨S65536x64, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S2048x64, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S65536x2048, .f32⟩
  | .hbm, ⟨14, _⟩ => ⟨S65536x2048, .f32⟩
  | .hbm, ⟨15, _⟩ => ⟨S65536x2048, .f32⟩
  | .hbm, ⟨16, _⟩ => ⟨S64x2048, .f32⟩
  | .hbm, ⟨17, _⟩ => ⟨S65536x2048, .f32⟩
  | .hbm, ⟨18, _⟩ => ⟨S_, .f32⟩
  | .hbm, ⟨19, _⟩ => ⟨S65536x2048, .f32⟩
  | .hbm, ⟨20, _⟩ => ⟨S65536x2048, .f32⟩
  | .hbm, ⟨21, _⟩ => ⟨S65536x2048, .f32⟩
  | .hbm, ⟨22, _⟩ => ⟨S_, .f32⟩
  | .hbm, ⟨23, _⟩ => ⟨S65536x2048, .f32⟩
  | .hbm, ⟨24, _⟩ => ⟨S65536x2048, .f32⟩
  | .hbm, ⟨25, _⟩ => ⟨S65536x2048, .f32⟩
  | .hbm, ⟨26, _⟩ => ⟨S1x2048, .i32⟩
  | .hbm, ⟨27, _⟩ => ⟨S65536x1, .i32⟩
  | .hbm, ⟨28, _⟩ => ⟨S65536x2048, .i32⟩
  | .hbm, ⟨29, _⟩ => ⟨S65536x2048, .i32⟩
  | .hbm, ⟨30, _⟩ => ⟨S65536x2048, .i1⟩
  | .hbm, ⟨31, _⟩ => ⟨S65536x2048, .f32⟩
  | .hbm, ⟨32, _⟩ => ⟨S65536x2048, .f32⟩
  | .hbm, ⟨33, _⟩ => ⟨S_, .f32⟩
  | .hbm, ⟨34, _⟩ => ⟨S65536, .f32⟩
  | .hbm, ⟨35, _⟩ => ⟨S65536x2048, .i1⟩
  | .hbm, ⟨36, _⟩ => ⟨S65536x2048, .f32⟩
  | .hbm, ⟨37, _⟩ => ⟨S65536x2048, .f32⟩
  | .hbm, ⟨38, _⟩ => ⟨S_, .f32⟩
  | .hbm, ⟨39, _⟩ => ⟨S65536, .f32⟩
  | .hbm, ⟨40, _⟩ => ⟨S65536, .f32⟩
  | .hbm, ⟨41, _⟩ => ⟨S65536, .f32⟩
  | .hbm, ⟨42, _⟩ => ⟨S65536, .f32⟩
  | .hbm, ⟨43, _⟩ => ⟨S_, .f32⟩
  | .hbm, ⟨44, _⟩ => ⟨S65536, .f32⟩
  | .hbm, ⟨45, _⟩ => ⟨S65536, .f32⟩
  | .hbm, ⟨46, _⟩ => ⟨S65536, .f32⟩
  | .hbm, ⟨47, _⟩ => ⟨S65536, .f32⟩
  | .hbm, ⟨48, _⟩ => ⟨S_, .f32⟩
  | .hbm, ⟨49, _⟩ => ⟨S65536, .f32⟩
  | .hbm, ⟨50, _⟩ => ⟨S65536, .f32⟩
  | .hbm, ⟨51, _⟩ => ⟨S_, .f32⟩
  | .hbm, ⟨52, _⟩ => ⟨S65536, .f32⟩
  | .hbm, ⟨53, _⟩ => ⟨S65536, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_call1_v0 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S2048x64_S2048_d1 : S2048x64.ReducesTo [1] S2048
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  transposes_S2048x64_S64x2048_1_0 : S2048x64.Transposes [1, 0] S64x2048
  bcast_S_S65536x2048 : S_.BroadcastsInDim S65536x2048 (![] : Fin 0 → Fin S65536x2048.rank)
  reducesTo_S65536x2048_S65536_d1 : S65536x2048.ReducesTo [1] S65536
  bcast_S_S65536 : S_.BroadcastsInDim S65536 (![] : Fin 0 → Fin S65536.rank)
  reducesTo_S65536_S_d0 : S65536.ReducesTo [0] S_
  dot_S65536x64_S64x2048_S65536x2048_1_0_0_1_n_n_wf : DotDims.WF S65536x64 S64x2048 S65536x2048 [1] [0] [0] [1] [] []

variable [Facts₀]

def dot_S65536x64_S64x2048_S65536x2048_1_0_0_1_n_n : DotDims S65536x64 S64x2048 S65536x2048 where
  lhsContracting := [1]
  rhsContracting := [0]
  lhsNonContracting := [0]
  rhsNonContracting := [1]
  lhsBatch := []
  rhsBatch := []
  wf := dot_S65536x64_S64x2048_S65536x2048_1_0_0_1_n_n_wf

class Facts : Prop extends Facts₀ where

variable [Facts]
-- ==== Proof.KernelDot.lean ====
/-
  The kernel's matrix product, rows by prototypes, read at an entry: with the accumulator zero, entry (r, q) is the sum
  over the 64 features of row r's entry times prototype q's (both operands are contracted along their second axis).
-/
import proofs.«401977_j8624294330866_3_alg».proof.Proof.Gen.KernelIdeal.Skeleton
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-! ## The matrix product at an entry -/

theorem lhs_dot_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_dot_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_dot_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_dot_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Entry (r, q) of the rows-by-prototypes product: the sum over the 64 features of row r's times prototype q's. -/
theorem cross_apply (a : FVec Ideal S1024x64 .bf16) (b : FVec Ideal S2048x64 .bf16) (r : Fin 1024) (q : Fin 2048) :
    matmul dot_S1024x64_S2048x64_S1024x2048_1_1_0_0_n_n none a b (constant S1024x2048 .f32 0x00000000#32) (ix2 r q)
      = ∑ k : Fin 64, a (ix2 r k) * b (ix2 q k) := by
  simp only [matmul]
  rw [Ideal.matmul_constant_zero_apply, ← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx (ix2 r q) ((ValueIdx.contrEquiv1 dot_S1024x64_S2048x64_S1024x2048_1_1_0_0_n_n 64 rfl rfl).symm k) = ix2 r k := funext fun ax => Fin.ext (by
    match ax with
    | ⟨0, _⟩ => exact lhs_dot_0 _ _
    | ⟨1, _⟩ => exact (lhs_dot_1 _ _).trans hk)
  have er : dot_S1024x64_S2048x64_S1024x2048_1_1_0_0_n_n.rhsIdx (ix2 r q) ((ValueIdx.contrEquiv1 dot_S1024x64_S2048x64_S1024x2048_1_1_0_0_n_n 64 rfl rfl).symm k) = ix2 q k := funext fun ax => Fin.ext (by
    match ax with
    | ⟨0, _⟩ => exact rhs_dot_0 _ _
    | ⟨1, _⟩ => exact (rhs_dot_1 _ _).trans hk)
  rw [el, er]

end Cert.KernelIdeal.Row

end
-- ==== Proof.Spec.lean ====
/-
  The mathematics of the certificate, with no program in sight.

  One sample row `xr` (64 reals), its label `yr`, the prototype table `p` (2048 rows of 64) and the prototype labels `l`
  determine one number, the row's GLVQ loss:
    · the squared distance to prototype q, by the expansion |x|² + |p_q|² − 2·⟨x, p_q⟩;
    · its distance `dist a = √(max a 0)`;
    · `posD`, the least distance over the prototypes of the row's class, and `negD`, the least over the others
      (a prototype outside the set counts as +∞, and the minimum starts from +∞);
    · μ = (posD − negD) / (posD + negD) and the loss 1 / (1 + e^(−1·μ)).
  That is the reference's order of operations. The kernel takes the masked minimum of the SQUARED distances first and
  applies `dist` to the one minimum (`posK`, `negK`). The two agree on the extended reals because `dist` is monotone and
  fixes +∞: a monotone map commutes with a minimum over a finite set, and the +∞ that fills the masked places and starts
  the fold is carried to +∞ (`dist_fold_min`, `posK_eq`, `negK_eq`). The kernel's `logistic (μ·1)` is the reference's
  quotient by definition of the logistic function and 1 being the unit (`lossK_eq`).
-/
import Idealize.ShloMosaic.PureOps.Ideal
import Idealize.ShloMosaic.PureOps.Ideal.Laws
import Idealize.ShloMosaic.Lib.ValueIdx

noncomputable section

open scoped BigOperators

namespace Cert.Glvq

open Idealize.ShloMosaic Idealize.ShloMosaic.ValueIdx

/-- The prototype table's and the prototype labels' shapes. -/
abbrev PShape : Shape := ⟨2, ![2048, 64]⟩
abbrev LShape : Shape := ⟨1, ![2048]⟩

/-- The four float words both programs spell: 0, 2, 1 and +∞. -/
abbrev zeroW : EReal := Ideal.ofBits .f32 0x00000000#32
abbrev twoW : EReal := Ideal.ofBits .f32 0x40000000#32
abbrev oneW : EReal := Ideal.ofBits .f32 0x3F800000#32
abbrev infW : EReal := Ideal.ofBits .f32 0x7F800000#32

theorem infW_eq : infW = ⊤ := by simp [Ideal.ofBits, Ideal.ieee]
theorem oneW_eq : oneW = 1 := by simp [Ideal.ofBits, Ideal.ieee, -EReal.coe_mul]; norm_num

/-- The squared distance from the row to prototype `q`, by the expansion of the square. -/
def sqd (xr : Fin 64 → EReal) (p : PShape.Idx → EReal) (q : Fin 2048) : EReal :=
  ((∑ k : Fin 64, xr k * xr k) + ∑ k : Fin 64, p (ix2 q k) * p (ix2 q k)) - twoW * ∑ k : Fin 64, xr k * p (ix2 q k)

/-- A squared distance clamped at zero, then its root. -/
def dist (a : EReal) : EReal := Ideal.sqrt (max a zeroW)

/-- Whether prototype `q` carries the row's label, as the one-bit word the comparison gives. -/
def same (yr : BitVec 32) (l : LShape.Idx → BitVec 32) (q : Fin 2048) : BitVec 1 := IntOp.cmpi .eq (l (ix1 q)) yr

/-- The least distance to a prototype of the row's class: distances first, then the masked minimum. -/
def posD (xr : Fin 64 → EReal) (yr : BitVec 32) (p : PShape.Idx → EReal) (l : LShape.Idx → BitVec 32) : EReal :=
  (Finset.univ : Finset (Fin 2048)).fold min infW fun q => Scalar.select (same yr l q) (dist (sqd xr p q)) infW

/-- The least distance to a prototype of another class. -/
def negD (xr : Fin 64 → EReal) (yr : BitVec 32) (p : PShape.Idx → EReal) (l : LShape.Idx → BitVec 32) : EReal :=
  (Finset.univ : Finset (Fin 2048)).fold min infW fun q => Scalar.select (~~~(same yr l q)) (dist (sqd xr p q)) infW

/-- The relative distance difference of two distances. -/
def mu (a b : EReal) : EReal := Ideal.div (a - b) (a + b)

/-- The row's loss, in the reference's order of operations. -/
def rowLoss (xr : Fin 64 → EReal) (yr : BitVec 32) (p : PShape.Idx → EReal) (l : LShape.Idx → BitVec 32) : EReal :=
  Ideal.div oneW (oneW + Ideal.exp (-(oneW * mu (posD xr yr p l) (negD xr yr p l))))

/-- The kernel's order: the masked minimum of the squared distances (the masked places filled with +∞), then `dist`. -/
def posK (xr : Fin 64 → EReal) (yr : BitVec 32) (p : PShape.Idx → EReal) (l : LShape.Idx → BitVec 32) : EReal :=
  dist ((Finset.univ : Finset (Fin 2048)).fold min infW fun q => Scalar.select (same yr l q) (sqd xr p q) ⊤)

def negK (xr : Fin 64 → EReal) (yr : BitVec 32) (p : PShape.Idx → EReal) (l : LShape.Idx → BitVec 32) : EReal :=
  dist ((Finset.univ : Finset (Fin 2048)).fold min infW fun q => Scalar.select (same yr l q) ⊤ (sqd xr p q))

/-- The row's loss in the kernel's order: one logistic of μ·1. -/
def rowLossK (xr : Fin 64 → EReal) (yr : BitVec 32) (p : PShape.Idx → EReal) (l : LShape.Idx → BitVec 32) : EReal :=
  Ideal.logistic (mu (posK xr yr p l) (negK xr yr p l) * oneW)

/-! ## The root of the clamped value is monotone and fixes +∞ -/

theorem sqrt_mono {a b : EReal} (h : a ≤ b) : Ideal.sqrt a ≤ Ideal.sqrt b := by
  induction a using EReal.rec with
  | bot => exact bot_le
  | top => rw [top_le_iff.mp h]
  | coe r =>
    induction b using EReal.rec with
    | bot => exact absurd h (by simp)
    | top => rw [Ideal.sqrt_top]; exact le_top
    | coe s =>
      have hrs : r ≤ s := EReal.coe_le_coe_iff.mp h
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

theorem dist_mono : Monotone dist := fun _ _ h => sqrt_mono (max_le_max h le_rfl)

theorem dist_top : dist ⊤ = ⊤ := by
  unfold dist
  rw [max_eq_left le_top, Ideal.sqrt_top]

/-- A monotone map commutes with the minimum over a finite set, started anywhere. -/
theorem map_fold_min {ι : Type} [DecidableEq ι] (f : EReal → EReal) (hf : Monotone f) (b : EReal) (g : ι → EReal) (s : Finset ι) :
    f (s.fold min b g) = s.fold min (f b) fun q => f (g q) := by
  induction s using Finset.induction_on with
  | empty => simp
  | insert a s ha ih => rw [Finset.fold_insert ha, Finset.fold_insert ha, hf.map_min, ih]

/-- A select between a value and +∞ goes through `dist`. -/
theorem dist_select (c : BitVec 1) (a : EReal) : dist (Scalar.select c a ⊤) = Scalar.select c (dist a) infW := by
  unfold Scalar.select
  split
  · rfl
  · rw [dist_top, infW_eq]

theorem dist_select' (c : BitVec 1) (a : EReal) : dist (Scalar.select c ⊤ a) = Scalar.select (~~~c) (dist a) infW := by
  have hc : c = 1#1 ∨ c = 0#1 := by
    rcases c with ⟨⟨v, hv⟩⟩
    have : v = 0 ∨ v = 1 := by omega
    rcases this with rfl | rfl
    · right; rfl
    · left; rfl
  rcases hc with rfl | rfl
  · show dist ⊤ = infW
    rw [dist_top, infW_eq]
  · rfl

theorem posK_eq (xr : Fin 64 → EReal) (yr : BitVec 32) (p : PShape.Idx → EReal) (l : LShape.Idx → BitVec 32) :
    posK xr yr p l = posD xr yr p l := by
  unfold posK posD
  rw [map_fold_min dist dist_mono]
  rw [show dist infW = infW from by rw [infW_eq, dist_top]]
  exact congrArg (fun g => Finset.fold min infW g Finset.univ) (funext fun q => dist_select _ _)

theorem negK_eq (xr : Fin 64 → EReal) (yr : BitVec 32) (p : PShape.Idx → EReal) (l : LShape.Idx → BitVec 32) :
    negK xr yr p l = negD xr yr p l := by
  unfold negK negD
  rw [map_fold_min dist dist_mono]
  rw [show dist infW = infW from by rw [infW_eq, dist_top]]
  exact congrArg (fun g => Finset.fold min infW g Finset.univ) (funext fun q => dist_select' _ _)

/-- The kernel's order of operations gives the reference's number. -/
theorem rowLossK_eq (xr : Fin 64 → EReal) (yr : BitVec 32) (p : PShape.Idx → EReal) (l : LShape.Idx → BitVec 32) :
    rowLossK xr yr p l = rowLoss xr yr p l := by
  unfold rowLossK rowLoss
  rw [posK_eq, negK_eq, oneW_eq, mul_one, one_mul]
  rfl

end Cert.Glvq

end
-- ==== Proof.Sums.lean ====
/-
  Sums over index sets, regrouped.

  The kernel leaves, per block of 1024 rows, the block's sum of row losses in the corner of an 8×128 tile and zero in the
  tile's other 1023 places; the host then adds up all 64 tiles. The reference adds up the 65536 row losses directly.
  Addition on the extended reals is commutative and associative, so both are the same sum: a tile sums to its corner
  (`sum_tile`), row `b·1024 + r` runs over all rows as (b, r) runs over blocks × rows in a block (`sum_rows`), and sums
  over a shape's index set are sums over its coordinates (`sum_idx1`, `sum_idx3`).
-/
import Idealize.ShloMosaic.Lib.ValueIdx

noncomputable section

open scoped BigOperators

namespace Cert.Glvq

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its coordinates' ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of block `b`, as a row of the whole array. -/
def row (b : Fin 64) (r : Fin 1024) : Fin 65536 := ⟨b.val * 1024 + r.val, by have := b.isLt; have := r.isLt; omega⟩

/-- The 8×128 tile with `s` in its corner and zero elsewhere. -/
def tile (s : EReal) (r : Fin 8) (c : Fin 128) : EReal := if r.val = 0 ∧ c.val = 0 then s else 0

/-- A tile sums to its corner. -/
theorem sum_tile_one (s : EReal) : ∑ r : Fin 8, ∑ c : Fin 128, tile s r c = s := by
  rw [Finset.sum_eq_single (0 : Fin 8)]
  · rw [Finset.sum_eq_single (0 : Fin 128)]
    · simp [tile]
    · intro c _ hc
      have : c.val ≠ 0 := fun h => hc (Fin.ext h)
      simp [tile, this]
    · intro h; exact absurd (Finset.mem_univ _) h
  · intro r _ hr
    have : r.val ≠ 0 := fun h => hr (Fin.ext h)
    simp [tile, this]
  · intro h; exact absurd (Finset.mem_univ _) h

/-- Blocks × rows of a block are the rows. -/
theorem sum_rows {M : Type*} [AddCommMonoid M] (f : Fin 65536 → M) :
    ∑ b : Fin 64, ∑ r : Fin 1024, f (row b r) = ∑ n : Fin 65536, f n := by
  rw [← Fintype.sum_prod_type' (f := fun b r => f (row b r))]
  refine Fintype.sum_equiv (finProdFinEquiv (m := 64) (n := 1024)) _ _ fun x => ?_
  obtain ⟨b, r⟩ := x
  refine congrArg f (Fin.ext ?_)
  show b.val * 1024 + r.val = r.val + 1024 * b.val
  omega

/-- The host's sum of the 64 tiles is the sum of all row values, when each tile holds its block's sum in its corner. -/
theorem total_eq (f : Fin 65536 → EReal) (g : (⟨3, ![64, 8, 128]⟩ : Shape).Idx → EReal) (h : (⟨1, ![65536]⟩ : Shape).Idx → EReal)
    (hg : ∀ a b c, g (ix3 a b c) = tile (∑ r : Fin 1024, f (row a r)) b c) (hh : ∀ n, h (ix1 n) = f n) :
    ∑ i, g i = ∑ j, h j := by
  rw [sum_idx3, sum_idx1]
  simp only [hg, hh, sum_tile_one]
  exact sum_rows f

/-- A sum over the index set of a [1, 1024, 1] array is the sum over its middle coordinate. -/
theorem sum_block (g : (⟨3, ![1, 1024, 1]⟩ : Shape).Idx → EReal) (f : Fin 1024 → EReal) (hg : ∀ r, g (ix3 0 r 0) = f r) :
    ∑ j, g j = ∑ r, f r := by
  rw [sum_idx3]
  simp only [Fin.sum_univ_one]
  exact Finset.sum_congr rfl fun r _ => hg r

end Cert.Glvq

end
-- ==== Proof.Layout.lean ====
/-
  A few array operations read at an index, at the literal ranks this certificate meets.

  A vector of `a` entries viewed as a column `[a, 1]` reads entry `i` at `(i, 0)`; a column broadcast along the rows reads
  its entry of the same row; a sum (a minimum) over the second axis of an `[a, b]` array is the sum (the minimum, started
  from the accumulator's value) of the row's `b` entries; a sum over every axis of an array is the sum of all its entries.
  And the word that says "row 0 and column 0" of an 8×128 tile selects the tile's corner.
-/
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws
import Idealize.ShloMosaic.PureOps.Reduce

noncomputable section

open scoped BigOperators

namespace Cert.Glvq

open Idealize.ShloMosaic Idealize.ShloMosaic.ValueIdx

variable {α : Type}

/-- An `[a]` vector cast to the column `[a, 1]` reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of an `[a, b]` array, at row `i`: the row's entries added. -/
theorem rowsum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with
      | ⟨0, _⟩ => rfl
      | ⟨1, _⟩ => rfl)))

/-- The minimum over the second axis of an `[a, b]` array, at row `i`: the minimum of the row's entries, started from the
    accumulator's value. -/
theorem rowmin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) fun k => src (ix2 i k) := by
  refine (multiReduction_minimumf_eq_fold src acc h hφ hacc (ix1 i)).trans ?_
  refine (h.fold_filter_drop_single _ _ src (ix1 i)).trans ?_
  refine congrArg (fun g => Finset.fold min (Ideal.ofBits φ acc) g (Finset.univ : Finset (Fin b))) (funext fun k => ?_)
  exact congrArg src (funext fun ax => Fin.ext (by
    match ax with
    | ⟨0, _⟩ => rfl
    | ⟨1, _⟩ => rfl))

/-- The host's minimum over the second axis of an `[a, b]` array, at row `i`, likewise. -/
theorem hostRowmin_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (min : EReal → EReal → EReal) x init h' hu (ix1 i)
      = (Finset.univ : Finset (Fin b)).fold min (init (Shape.Idx.first hu)) fun k => x (ix2 i k) := by
  refine (Host.reduce_eq_fold_single (min : EReal → EReal → EReal) x init h' h hu (ix1 i)).trans ?_
  refine congrArg (fun g => Finset.fold min (init (Shape.Idx.first hu)) g (Finset.univ : Finset (Fin b))) (funext fun k => ?_)
  exact congrArg x (funext fun ax => Fin.ext (by
    match ax with
    | ⟨0, _⟩ => rfl
    | ⟨1, _⟩ => rfl))

/-- Whether a coordinate below 2³² is zero, as the comparison's one-bit word. -/
theorem cmpi_eq_zero (n : ℕ) (hn : n < 2 ^ 32) :
    IntOp.cmpi .eq (BitVec.ofNat 32 n) 0#32 = if n = 0 then 1#1 else 0#1 := by
  by_cases h : n = 0
  · subst h; rfl
  · rw [if_neg h]
    refine eq_zero_of_ne_one fun e => h ?_
    have := congrArg BitVec.toNat (IntOp.cmpi_eq.mp e)
    simp only [BitVec.toNat_ofNat] at this
    omega

/-- A select on "row 0 and column 0" of an 8×128 tile is the `if` on the two coordinates. -/
theorem corner_select (r : Fin 8) (c : Fin 128) (A B : α) :
    Scalar.select (IntOp.andi (IntOp.cmpi .eq (BitVec.ofNat 32 r.val) 0#32) (IntOp.cmpi .eq (BitVec.ofNat 32 c.val) 0#32)) A B
      = if r.val = 0 ∧ c.val = 0 then A else B := by
  rw [cmpi_eq_zero r.val (by have := r.isLt; omega), cmpi_eq_zero c.val (by have := c.isLt; omega)]
  by_cases hr : r.val = 0 <;> by_cases hc : c.val = 0 <;> simp [hr, hc, Scalar.select, IntOp.andi]

end Cert.Glvq

end
-- ==== Proof.KernelRow.lean ====
/-
  What one grid point of the idealized kernel computes, read entry by entry.

  The point holds 1024 sample rows `x0`, their labels `x1`, and the whole prototype table `x2` with its labels `x3`.
  Entry (r, q) of the kernel's squared-distance array is the row-norm, the prototype-norm and twice the matrix
  product's entry combined (`sqv_apply`: the two norms are lane sums, the product a sum over the 64 features, a change of
  float format being the identity here), and entry (r, q) of its label mask compares prototype q's label with row r's
  (`samev_apply`). The two masked minima run over a row's 2048 entries from +∞, the named filler being +∞
  (`posVec_apply`, `negVec_apply`), so row r's μ is the specification's (`pay2_apply`); the block's 1024 logistic values
  are added into one number, which is put in the corner of an otherwise zero 8×128 tile (`pay1_apply`). Together: the
  block's tile holds the sum of its rows' losses (`block_apply`).
-/
import proofs.«401977_j8624294330866_3_alg».proof.Proof.Gen.KernelIdeal.Skeleton
import proofs.«401977_j8624294330866_3_alg».proof.Proof.KernelDot
import proofs.«401977_j8624294330866_3_alg».proof.Proof.Spec
import proofs.«401977_j8624294330866_3_alg».proof.Proof.Sums
import proofs.«401977_j8624294330866_3_alg».proof.Proof.Layout
import Idealize.ShloMosaic.PureOps.IdealRules

noncomputable section

open scoped BigOperators

namespace Cert.KernelIdeal.Row

open Cert.KernelIdeal Cert.KernelIdeal.Gen Cert.Glvq Idealize.ShloMosaic Idealize.ShloMosaic.ValueIdx

/-- A root taken entry by entry. -/
theorem sqrt_apply {s : Shape} {φ : FTy} (a : FVec Ideal s φ) (i : s.Idx) : sqrt a i = Ideal.sqrt (a i) := rfl

/-- A logistic taken entry by entry. -/
theorem logistic_apply {s : Shape} {φ : FTy} (a : FVec Ideal s φ) (i : s.Idx) : logistic a i = Ideal.logistic (a i) := rfl

/-- A float word read as a scalar is the word's value. -/
theorem scalar_ofBits (φ : FTy) (b : BitVec φ.bits) : Scalar.ofBits (F := Ideal) φ b = Ideal.ofBits φ b := rfl

/-! ## The squared distances and the label mask -/

/-- The kernel's array of squared distances, rows by prototypes. -/
def sqv (x0 : Vec Ideal S1024x64 .f32) (x2 : Vec Ideal S2048x64 .f32) : FVec Ideal S1024x2048 .f32 :=
  subf
    (addf
      (broadcastTo S1024x2048 (shapeCast S1024x1 (multiReduction .add [1] S1024 (mulf x0 x0 : FVec Ideal S1024x64 .f32) 0x00000000#32 reduces_S1024x64_S1024 (.inl rfl) rfl) shapeCasts_S1024_S1024x1) broadcasts_S1024x1_S1024x2048)
      (broadcastTo S1024x2048 (shapeCast S1x2048 (multiReduction .add [1] S2048 (mulf x2 x2 : FVec Ideal S2048x64 .f32) 0x00000000#32 reduces_S2048x64_S2048 (.inl rfl) rfl) shapeCasts_S2048_S1x2048) broadcasts_S1x2048_S1024x2048))
    (mulf (broadcast S1024x2048 (Scalar.ofBits (F := Ideal) .f32 0x40000000#32))
      (matmul dot_S1024x64_S2048x64_S1024x2048_1_1_0_0_n_n none (truncf .bf16 x0 bitsLt_bf16_f32) (truncf .bf16 x2 bitsLt_bf16_f32) (constant S1024x2048 .f32 0x00000000#32)))

theorem sqv_apply (x0 : Vec Ideal S1024x64 .f32) (x2 : Vec Ideal S2048x64 .f32) (r : Fin 1024) (q : Fin 2048) :
    sqv x0 x2 (ix2 r q) = sqd (fun k => x0 (ix2 r k)) x2 q := by
  unfold sqv sqd
  simp only [subf_apply, addf_apply, mulf_apply, broadcast_apply, scalar_ofBits]
  refine congrArg₂ (· - ·) (congrArg₂ (· + ·) ?_ ?_) (congrArg (twoW * ·) ?_)
  · refine (broadcastTo_a1_ab_apply _ _ r q).trans ?_
    refine (shapeCast_a_a1_apply _ _ r 0).trans ?_
    exact rowsum_apply (mulf x0 x0 : FVec Ideal S1024x64 .f32) _ _ _ _ r
  · refine (broadcastTo_1b_ab_apply _ _ r q).trans ?_
    refine (shapeCast_a_1a_apply _ _ 0 q).trans ?_
    exact rowsum_apply (mulf x2 x2 : FVec Ideal S2048x64 .f32) _ _ _ _ q
  · exact cross_apply _ _ r q

/-- The kernel's mask: prototype q's label equals row r's. -/
def samev (x1 : Vec Ideal S1024 .i32) (x3 : Vec Ideal S2048 .i32) : IVec S1024x2048 1 :=
  cmpi .eq
    (broadcastTo S1024x2048 (shapeCast S1x2048 (x3 : IVec S2048 32) shapeCasts_S2048_S1x2048) broadcasts_S1x2048_S1024x2048)
    (broadcastTo S1024x2048 (shapeCast S1024x1 (x1 : IVec S1024 32) shapeCasts_S1024_S1024x1) broadcasts_S1024x1_S1024x2048)

theorem samev_apply (x1 : Vec Ideal S1024 .i32) (x3 : Vec Ideal S2048 .i32) (r : Fin 1024) (q : Fin 2048) :
    samev x1 x3 (ix2 r q) = same (x1 (ix1 r)) x3 q := by
  unfold samev same
  refine congrArg₂ (IntOp.cmpi .eq) ?_ ?_
  · refine (broadcastTo_1b_ab_apply _ _ r q).trans ?_
    exact shapeCast_a_1a_apply _ _ 0 q
  · refine (broadcastTo_a1_ab_apply _ _ r q).trans ?_
    exact shapeCast_a_a1_apply _ _ r 0

/-! ## The two masked minima, then the root -/

/-- The named filler is +∞. -/
theorem named_top : Named.named (F := Ideal) κ "pos_big" (φ := .f32) 0x7149F2CA#32 = (⊤ : EReal) :=
  IdealRules.named_const.ideal_named_scalar _ _ _ _ rfl

def posVec (S : FVec Ideal S1024x2048 .f32) (M : IVec S1024x2048 1) : FVec Ideal S1024x1 .f32 :=
  sqrt (maximumf
    (shapeCast S1024x1 (multiReduction .minimumf [1] S1024 (select M S (broadcast S1024x2048 (Named.named (F := Ideal) κ "pos_big" (φ := .f32) 0x7149F2CA#32))) 0x7F800000#32 reduces_S1024x2048_S1024 (.inl rfl) rfl) shapeCasts_S1024_S1024x1)
    (broadcast S1024x1 (Scalar.ofBits (F := Ideal) .f32 0x00000000#32)))

def negVec (S : FVec Ideal S1024x2048 .f32) (M : IVec S1024x2048 1) : FVec Ideal S1024x1 .f32 :=
  sqrt (maximumf
    (shapeCast S1024x1 (multiReduction .minimumf [1] S1024 (select M (broadcast S1024x2048 (Named.named (F := Ideal) κ "pos_big" (φ := .f32) 0x7149F2CA#32)) S) 0x7F800000#32 reduces_S1024x2048_S1024 (.inl rfl) rfl) shapeCasts_S1024_S1024x1)
    (broadcast S1024x1 (Scalar.ofBits (F := Ideal) .f32 0x00000000#32)))

theorem posVec_apply (S : FVec Ideal S1024x2048 .f32) (M : IVec S1024x2048 1) (r : Fin 1024) :
    posVec S M (ix2 r (0 : Fin 1))
      = Glvq.dist ((Finset.univ : Finset (Fin 2048)).fold min infW fun q => Scalar.select (M (ix2 r q)) (S (ix2 r q)) ⊤) := by
  unfold posVec Glvq.dist
  rw [sqrt_apply, maximumf_apply, broadcast_apply, scalar_ofBits]
  refine congrArg (fun z => Ideal.sqrt (max z zeroW)) ?_
  refine (shapeCast_a_a1_apply _ _ r 0).trans ?_
  refine (rowmin_apply _ _ _ _ _ r).trans ?_
  refine congrArg (fun g => Finset.fold min infW g (Finset.univ : Finset (Fin 2048))) (funext fun q => ?_)
  show Scalar.select (M (ix2 r q)) (S (ix2 r q)) (Named.named (F := Ideal) κ "pos_big" (φ := .f32) 0x7149F2CA#32) = _
  rw [named_top]

theorem negVec_apply (S : FVec Ideal S1024x2048 .f32) (M : IVec S1024x2048 1) (r : Fin 1024) :
    negVec S M (ix2 r (0 : Fin 1))
      = Glvq.dist ((Finset.univ : Finset (Fin 2048)).fold min infW fun q => Scalar.select (M (ix2 r q)) ⊤ (S (ix2 r q))) := by
  unfold negVec Glvq.dist
  rw [sqrt_apply, maximumf_apply, broadcast_apply, scalar_ofBits]
  refine congrArg (fun z => Ideal.sqrt (max z zeroW)) ?_
  refine (shapeCast_a_a1_apply _ _ r 0).trans ?_
  refine (rowmin_apply _ _ _ _ _ r).trans ?_
  refine congrArg (fun g => Finset.fold min infW g (Finset.univ : Finset (Fin 2048))) (funext fun q => ?_)
  show Scalar.select (M (ix2 r q)) (Named.named (F := Ideal) κ "pos_big" (φ := .f32) 0x7149F2CA#32) (S (ix2 r q)) = _
  rw [named_top]

/-! ## Row r's μ -/

/-- The payload that computes μ is the two branches over the squared distances and the mask. -/
theorem pay2_eq (x0 : Vec Ideal S1024x64 .f32) (x2 : Vec Ideal S2048x64 .f32) (x1 : Vec Ideal S1024 .i32) (x3 : Vec Ideal S2048 .i32) :
    k0_pay2 (F := Ideal) x0 x2 x1 x3
      = divf (subf (posVec (sqv x0 x2) (samev x1 x3)) (negVec (sqv x0 x2) (samev x1 x3)))
          (addf (posVec (sqv x0 x2) (samev x1 x3)) (negVec (sqv x0 x2) (samev x1 x3))) := rfl

theorem pay2_apply (x0 : Vec Ideal S1024x64 .f32) (x2 : Vec Ideal S2048x64 .f32) (x1 : Vec Ideal S1024 .i32) (x3 : Vec Ideal S2048 .i32) (r : Fin 1024) :
    k0_pay2 (F := Ideal) x0 x2 x1 x3 (ix2 r (0 : Fin 1))
      = mu (posK (fun k => x0 (ix2 r k)) (x1 (ix1 r)) x2 x3) (negK (fun k => x0 (ix2 r k)) (x1 (ix1 r)) x2 x3) := by
  rw [pay2_eq, divf_apply, subf_apply, addf_apply, posVec_apply, negVec_apply]
  unfold mu posK negK
  refine congrArg₂ (fun a b => Ideal.div (a - b) (a + b))
    (congrArg Glvq.dist (congrArg (fun g => Finset.fold min infW g (Finset.univ : Finset (Fin 2048))) (funext fun q => ?_)))
    (congrArg Glvq.dist (congrArg (fun g => Finset.fold min infW g (Finset.univ : Finset (Fin 2048))) (funext fun q => ?_)))
  · rw [sqv_apply, samev_apply]
  · rw [sqv_apply, samev_apply]

/-! ## The block's tile -/

/-- The payload that is stored: the 1024 logistic values of μ·w added up, in the corner of an otherwise zero tile. -/
theorem pay1_apply (v40 v41 : FVec Ideal S1024x1 .f32) (u : Fin 1) (r : Fin 8) (c : Fin 128) :
    k0_pay1 (F := Ideal) v40 v41 (ix3 u r c)
      = tile (∑ j : Fin 1024, Ideal.logistic (v40 (ix2 j (0 : Fin 1)) * v41 (ix2 j (0 : Fin 1)))) r c := by
  unfold k0_pay1
  refine (shapeCast_ab_1ab_apply _ _ u r c).trans ?_
  rw [select_apply, broadcast_apply, broadcast_apply, scalar_ofBits]
  show Scalar.select (IntOp.andi (IntOp.cmpi .eq (iota .tc S8x128 32 [0] iota_S8x128_d0_w32 (ix2 r c)) 0#32)
      (IntOp.cmpi .eq (iota .tc S8x128 32 [1] iota_S8x128_d1_w32 (ix2 r c)) 0#32)) _ _ = _
  rw [iota_single_apply, iota_single_apply]
  show Scalar.select (IntOp.andi (IntOp.cmpi .eq (BitVec.ofNat 32 r.val) 0#32) (IntOp.cmpi .eq (BitVec.ofNat 32 c.val) 0#32)) _ _ = _
  rw [corner_select]
  unfold tile
  refine congrArg₂ (fun a b => if r.val = 0 ∧ c.val = 0 then a else b) ?_ Ideal.ofBits_zero_f32
  unfold extractAt
  refine (shapeCast_apply _ _ _ (ix1 (0 : Fin 1)) (by rw [Shape.rowMajor_val_one, Shape.rowMajor_val_three]; rfl)).trans ?_
  refine (Ideal.multiReduction_add_total _ _ _ (fun b => by match b with | ⟨0, _⟩ => rfl) _ _ (ix1 (0 : Fin 1))).trans ?_
  refine sum_block _ _ fun j => ?_
  exact shapeCast_ab_1ab_apply _ _ 0 j 0

/-- The weight the kernel multiplies μ by is the word 1. -/
theorem pay3_apply (i : S1024x1.Idx) : k0_pay3 (F := Ideal) i = oneW := by
  unfold k0_pay3
  exact scalar_ofBits _ _

/-- One grid point's stored tile, from the point's rows, labels and the prototypes: the block's sum of row losses in
    the corner. -/
theorem block_apply (x0 : Vec Ideal S1024x64 .f32) (x1 : Vec Ideal S1024 .i32) (x2 : Vec Ideal S2048x64 .f32) (x3 : Vec Ideal S2048 .i32)
    (u : Fin 1) (r : Fin 8) (c : Fin 128) :
    k0_pay1 (F := Ideal) (k0_pay2 (F := Ideal) x0 x2 x1 x3) (k0_pay3 (F := Ideal)) (ix3 u r c)
      = tile (∑ j : Fin 1024, rowLossK (fun k => x0 (ix2 j k)) (x1 (ix1 j)) x2 x3) r c := by
  rw [pay1_apply]
  refine congrArg (fun s => tile s r c) (Finset.sum_congr rfl fun j _ => ?_)
  rw [pay2_apply, pay3_apply]
  rfl

end Cert.KernelIdeal.Row

end
-- ==== Proof.KernelValue.lean ====
/-
  The idealized kernel's result, from its frame run.

  Grid point t stages rows t·1024 … t·1024 + 1023 of the samples and of their labels, and the whole prototype table and
  label vector (`iblk0_apply` … `iblk3_eq`, from the printed index maps decided over the 64 points). What it writes back
  is therefore block t of ONE array of 64 tiles, tile b holding in its corner the sum of the losses of rows
  b·1024 … b·1024 + 1023 (`tiles`, `flushed_eq`); the 64 blocks cover the output array (`cover`), so after the region
  the array is `tiles` (`final`). The host lines after the region add up the array from the word 0 and divide by the
  word 65536 (`tail_eq`), which at the extended reals is 0 plus the sum of all tile entries, divided (`result_apply`).
-/
import proofs.«401977_j8624294330866_3_alg».proof.Proof.Gen.KernelIdeal.Frame
import proofs.«401977_j8624294330866_3_alg».proof.Proof.KernelRow
import Idealize.ShloMosaic.Lib.Pipeline.Value
import Idealize.ShloMosaic.Lib.StableHlo.Run
import Idealize.ShloMosaic.Lib.Tactic

noncomputable section

open scoped BigOperators

namespace Cert.KernelIdeal.Hand

open Cert.KernelIdeal Cert.KernelIdeal.Gen Cert.KernelIdeal.Row Cert.Glvq
open Idealize.ShloMosaic Idealize.ShloMosaic.TcCoe Idealize.SL.Sem Idealize.ShloMosaic.ValueIdx
open Idealize.ShloMosaic.Pipeline (Dat)

/-! ## The array of tiles, as a function of the four argument arrays -/

/-- Row n's loss, in the kernel's order of operations. -/
def lossRow (X : Vec Ideal S65536x64 .f32) (Y : Vec Ideal S65536 .i32) (Pp : Vec Ideal S2048x64 .f32) (L : Vec Ideal S2048 .i32)
    (n : Fin 65536) : EReal :=
  rowLossK (fun k => X (ix2 n k)) (Y (ix1 n)) Pp L

/-- 64 tiles of 8×128: tile b holds the sum of the losses of block b's 1024 rows in its corner, zero elsewhere. -/
def tiles (X : Vec Ideal S65536x64 .f32) (Y : Vec Ideal S65536 .i32) (Pp : Vec Ideal S2048x64 .f32) (L : Vec Ideal S2048 .i32) :
    Vec Ideal S64x8x128 .f32 := fun i =>
  tile (∑ r : Fin 1024, lossRow X Y Pp L (row ⟨(i 0).val, (i 0).isLt⟩ r)) ⟨(i 1).val, (i 1).isLt⟩ ⟨(i 2).val, (i 2).isLt⟩

theorem tiles_apply (X : Vec Ideal S65536x64 .f32) (Y : Vec Ideal S65536 .i32) (Pp : Vec Ideal S2048x64 .f32) (L : Vec Ideal S2048 .i32)
    (b : Fin 64) (r : Fin 8) (cc : Fin 128) :
    tiles X Y Pp L (ix3 b r cc) = tile (∑ j : Fin 1024, lossRow X Y Pp L (row b j)) r cc := rfl

/-- One grid point's stored tile is tile `b` of `tiles`, when the point's blocks are block `b`'s rows and labels and the
    whole prototype arrays. -/
theorem point_eq (X : Vec Ideal S65536x64 .f32) (Y : Vec Ideal S65536 .i32) (Pp : Vec Ideal S2048x64 .f32) (L : Vec Ideal S2048 .i32)
    (x0 : Vec Ideal S1024x64 .f32) (x1 : Vec Ideal S1024 .i32) (x2 : Vec Ideal S2048x64 .f32) (x3 : Vec Ideal S2048 .i32) (b : Fin 64)
    (h0 : ∀ (r : Fin 1024) (k : Fin 64), x0 (ix2 r k) = X (ix2 (row b r) k)) (h1 : ∀ r : Fin 1024, x1 (ix1 r) = Y (ix1 (row b r)))
    (h2 : x2 = Pp) (h3 : x3 = L) (u : Fin 1) (r : Fin 8) (cc : Fin 128) :
    k0_pay1 (F := Ideal) (k0_pay2 (F := Ideal) x0 x2 x1 x3) (k0_pay3 (F := Ideal)) (ix3 u r cc) = tiles X Y Pp L (ix3 b r cc) := by
  rw [block_apply, tiles_apply]
  refine congrArg (fun s => tile s r cc) (Finset.sum_congr rfl fun j _ => ?_)
  unfold lossRow
  subst h2 h3
  rw [h1 j]
  exact congrArg (fun xr => rowLossK xr (Y (ix1 (row b j))) x2 x3) (funext fun k => h0 j k)

variable (m : (ℓ : Loc nD τ sig) → Buf (Elt Ideal) ℓ) (ρ : Dev nD → PrngReg)

/-! ## The blocks a grid point stages -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 grid points: the sample and label windows and the output window move
    with the point; the prototype windows stay. -/
theorem idx_facts : ∀ t : Fin cfg0.N,
    win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- A grid point as a block number. -/
def pt (t : Fin cfg0.N) : Fin 64 := ⟨t.val, by have := t.isLt; have h : cfg0.N = 64 := N_0; omega⟩

theorem iblk0_apply (c : Dev nD) (t : Fin cfg0.N) (r : Fin 1024) (k : Fin 64) :
    (iblk m c 0 t : Vec Ideal S1024x64 .f32) (ix2 r k) = (V m c main_arg0 : Vec Ideal S65536x64 .f32) (ix2 (row (pt t) r) k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 64 + 1 * k.val = k.val; rw [e1]; omega

theorem iblk1_apply (c : Dev nD) (t : Fin cfg0.N) (r : Fin 1024) :
    (iblk m c 1 t : Vec Ideal S1024 .i32) (ix1 r) = (V m c main_arg1 : Vec Ideal S65536 .i32) (ix1 (row (pt t) r)) := by
  obtain ⟨-, -, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 1) * 1024 + 1 * r.val = t.val * 1024 + r.val; rw [e2]; omega

theorem iblk2_eq (c : Dev nD) (t : Fin cfg0.N) : (iblk m c 2 t : Vec Ideal S2048x64 .f32) = V m c main_arg2 := by
  obtain ⟨-, -, -, e3, e4, -⟩ := idx_facts t
  funext j
  unfold iblk
  rw [View.read_apply]
  show V m c main_arg2 _ = V m c main_arg2 _
  refine congrArg (V m c main_arg2) (funext fun a => Fin.ext ?_)
  match a with
  | ⟨0, _⟩ => show win0_2.index t (0 : Fin 2) * 2048 + 1 * (j 0).val = (j 0).val; rw [e3]; omega
  | ⟨1, _⟩ => show win0_2.index t (1 : Fin 2) * 64 + 1 * (j 1).val = (j 1).val; rw [e4]; omega

theorem iblk3_eq (c : Dev nD) (t : Fin cfg0.N) : (iblk m c 3 t : Vec Ideal S2048 .i32) = V m c main_arg3 := by
  obtain ⟨-, -, -, -, -, e5, -⟩ := idx_facts t
  funext j
  unfold iblk
  rw [View.read_apply]
  show V m c main_arg3 _ = V m c main_arg3 _
  refine congrArg (V m c main_arg3) (funext fun a => Fin.ext ?_)
  match a with
  | ⟨0, _⟩ => show win0_3.index t (0 : Fin 1) * 2048 + 1 * (j 0).val = (j 0).val; rw [e5]; omega

/-! ## What a point writes back, and the array after the region -/

/-- The output array after the region, of the argument arrays as the region finds them. -/
abbrev tilesV (c : Dev nD) : Vec Ideal S64x8x128 .f32 :=
  tiles (V m c main_arg0) (V m c main_arg1) (V m c main_arg2) (V m c main_arg3)

theorem flushed_eq (c : Dev nD) (t : Fin cfg0.N) :
    (dats m 0 c).flushed 4 t = ((cfg0.win 4).blk t).view.read (Elt Ideal) (tilesV m c) := by
  show (cfg0.win 4).cut (grid0.coords t) ((dats m 0 c).after 4 t) = _
  rw [after0_4]
  unfold out0_4
  rw [View.canon_unit_zero hz3]
  simp only [View.ld_unit_zero (S := S1024x64) hz2, View.ld_unit_zero (S := S2048x64) hz2, View.ld_unit_zero (S := S1024) hz1,
    View.ld_unit_zero (S := S2048) hz1]
  obtain ⟨-, -, -, -, -, -, e6, e7, e8⟩ := idx_facts t
  funext j
  show k0_pay1 (F := Ideal) (k0_pay2 (F := Ideal) (iblk m c 0 t) (iblk m c 2 t) (iblk m c 1 t) (iblk m c 3 t)) (k0_pay3 (F := Ideal)) (ix3 (j 0) (j 1) (j 2))
    = tilesV m c (((cfg0.win 4).blk t).view.emb j)
  refine (point_eq (V m c main_arg0) (V m c main_arg1) (V m c main_arg2) (V m c main_arg3)
    (iblk m c 0 t) (iblk m c 1 t) (iblk m c 2 t) (iblk m c 3 t) (pt t)
    (iblk0_apply m c t) (iblk1_apply m c t) (iblk2_eq m c t) (iblk3_eq m c t) (j 0) (j 1) (j 2)).trans ?_
  refine congrArg (tilesV m c) (funext fun a => Fin.ext ?_)
  match a with
  | ⟨0, _⟩ => show t.val = win0_4.index t (0 : Fin 3) * 1 + 1 * (j 0).val; have hj : (j 0).val < 1 := (j 0).isLt; rw [e6]; omega
  | ⟨1, _⟩ => show (j 1).val = win0_4.index t (1 : Fin 3) * 8 + 1 * (j 1).val; rw [e7]; omega
  | ⟨2, _⟩ => show (j 2).val = win0_4.index t (2 : Fin 3) * 128 + 1 * (j 2).val; rw [e8]; omega

/-- An index of the output array is in point t's block iff each coordinate is in the block's range on its axis. -/
theorem mem_blk (t : Fin cfg0.N) (i : S64x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0).slice (win0_4.rect t)).set ↔ _
  rw [View.set_slice_whole, Rect.mem_set_unit]
  exact Iff.rfl

/-- Every index of the output array is in the block of the point its first coordinate names. -/
theorem cover (i : S64x8x128.Idx) : ∃ t : Fin cfg0.N, (cfg0.win 4).flush t = true ∧ i ∈ ((cfg0.win 4).blk t).view.set := by
  have hi0 : (i 0).val < 64 := (i 0).isLt
  have hi1 : (i 1).val < 8 := (i 1).isLt
  have hi2 : (i 2).val < 128 := (i 2).isLt
  have hN : cfg0.N = 64 := N_0
  have hlt : (i 0).val < cfg0.N := by omega
  obtain ⟨-, -, -, -, -, -, e6, e7, e8⟩ := idx_facts ⟨(i 0).val, hlt⟩
  have e6' : win0_4.index ⟨(i 0).val, hlt⟩ (0 : Fin 3) = (i 0).val := e6
  refine ⟨⟨(i 0).val, hlt⟩, flush0_4 _, ?_⟩
  rw [mem_blk]
  intro a
  match a with
  | ⟨0, _⟩ => show win0_4.index ⟨(i 0).val, hlt⟩ (0 : Fin 3) * 1 ≤ (i 0).val ∧ (i 0).val < win0_4.index ⟨(i 0).val, hlt⟩ (0 : Fin 3) * 1 + 1; rw [e6']; omega
  | ⟨1, _⟩ => show win0_4.index ⟨(i 0).val, hlt⟩ (1 : Fin 3) * 8 ≤ (i 1).val ∧ (i 1).val < win0_4.index ⟨(i 0).val, hlt⟩ (1 : Fin 3) * 8 + 8; rw [e7]; omega
  | ⟨2, _⟩ => show win0_4.index ⟨(i 0).val, hlt⟩ (2 : Fin 3) * 128 ≤ (i 2).val ∧ (i 2).val < win0_4.index ⟨(i 0).val, hlt⟩ (2 : Fin 3) * 128 + 128; rw [e8]; omega

theorem final (c : Dev nD) : (dats m 0 c).arrAt 4 cfg0.N = tilesV m c :=
  (dats m 0 c).arrAt_eq_of_cover 4 (tilesV m c) (fun t _ => flushed_eq m c t) (cover)

end Cert.KernelIdeal.Hand

end
-- ==== Proof.KernelRun.lean ====
/-
  The idealized kernel program's run, with its result named.

  After the region the output array is the array of tiles; the two host lines that follow add it up from the word 0 and
  divide by the word 65536 (`tail_eq`). So every weakly fair execution ends with the result buffer at `result` of the four
  argument arrays, which are unchanged (`run`); at the scalar's one index `result` is 0 plus the sum of all tile entries,
  divided by the value of the word 65536 (`result_apply`).
-/
import proofs.«401977_j8624294330866_3_alg».proof.Proof.KernelValue

noncomputable section

open scoped BigOperators

namespace Cert.KernelIdeal.Hand

open Cert.KernelIdeal Cert.KernelIdeal.Gen Cert.Glvq
open Idealize.ShloMosaic Idealize.ShloMosaic.TcCoe Idealize.SL.Sem Idealize.ShloMosaic.ValueIdx
open Idealize.ShloMosaic.Pipeline (Dat)

/-- The program's result, of the four argument arrays: the tiles added up from the word 0, over the word 65536. -/
def result (X : Vec Ideal S65536x64 .f32) (Y : Vec Ideal S65536 .i32) (Pp : Vec Ideal S2048x64 .f32) (L : Vec Ideal S2048 .i32) :
    Vec Ideal S_ .f32 :=
  Host.divf (F := Ideal)
    (Host.reduceAdd (F := Ideal) (tiles X Y Pp L) (constant (F := Ideal) S_ .f32 0x00000000#32) reducesTo_S64x8x128_S_d0_1_2 h_S_)
    (constant (F := Ideal) S_ .f32 0x47800000#32)

theorem result_apply (X : Vec Ideal S65536x64 .f32) (Y : Vec Ideal S65536 .i32) (Pp : Vec Ideal S2048x64 .f32) (L : Vec Ideal S2048 .i32)
    (i : S_.Idx) :
    result X Y Pp L i = Ideal.div (zeroW + ∑ j : S64x8x128.Idx, tiles X Y Pp L j) (Ideal.ofBits .f32 0x47800000#32) := by
  unfold result
  generalize tiles X Y Pp L = y0
  show FloatOps.hostDivf (Host.reduceAdd (F := Ideal) y0 (constant (F := Ideal) S_ .f32 0x00000000#32) reducesTo_S64x8x128_S_d0_1_2 h_S_ i)
      (constant (F := Ideal) S_ .f32 0x47800000#32 i) = _
  rw [Ideal.hostDivf_def, constant_apply]
  refine congrArg (fun z => Ideal.div z (Ideal.ofBits .f32 0x47800000#32)) ?_
  simp only [Host.reduceAdd, Ideal.hostReduceAdd_def]
  refine (Ideal.hostReduceAdd_total reducesTo_S64x8x128_S_d0_1_2 (fun b => b.elim0) y0 _ i).trans ?_
  rw [constant_apply]

variable (m : (ℓ : Loc nD τ sig) → Buf (Elt Ideal) ℓ) (ρ : Dev nD → PrngReg)

/-- The result buffer after the host lines that follow the region. -/
theorem tail_eq (c : Dev nD) :
    Pipeline.afterTail₀ cfgs (dats m) 0 (V0 m) [hostOps1] c main_v2
      = result (V m c main_arg0) (V m c main_arg1) (V m c main_arg2) (V m c main_arg3) := by
  unfold Pipeline.afterTail₀ result
  show StableHlo.after hostOps1 _ (Proc.devRef .tc main_v2) = _
  after_results
  have e : Pipeline.withArrays (cfgs 0).spec c (V0 m c) (fun w => (dats m 0 c).arrAt w (cfgs 0).N) (Proc.devRef .tc main_v0)
      = tilesV m c :=
    (Pipeline.withArrays_arr spec0 launch0.win.arr_inj c _ _ 4).trans (final m c)
  rw [e]

/-- Every weakly fair execution of the idealized kernel program ends with its result at `result` of the arguments, and the
    arguments unchanged. -/
theorem run : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Hand

end
-- ==== Proof.RefRow.lean ====
/-
  The idealized reference, read row by row.

  Its stages are the generated ones; read at row n and prototype q they give the squared distance by the expansion of
  the square (`sq_apply`: the host's sums start from the word 0, which adds nothing), its clamped root (`dist_apply`) and
  the label comparison (`same_apply`). The two minima over a row's 2048 masked distances, each started from +∞, are the
  specification's `posD` and `negD` (`pos_apply`, `neg_apply`: the second mask is the first one's complement), and the
  expansion 1 / (1 + e^(−1·μ)) of the logistic function that follows is the specification's row loss (`loss_apply`). The
  result is the sum of all rows' losses, started from 0, divided by the row count (`total_apply`).
-/
import proofs.«401977_j8624294330866_3_alg».proof.Proof.Gen.ReferenceIdeal.Read
import proofs.«401977_j8624294330866_3_alg».proof.Proof.Spec
import proofs.«401977_j8624294330866_3_alg».proof.Proof.Layout

noncomputable section

open scoped BigOperators

namespace Cert.ReferenceIdeal.RefRow

open Cert.ReferenceIdeal Cert.ReferenceIdeal.Gen Cert.ReferenceIdeal.Read Cert.Glvq Idealize.ShloMosaic Idealize.ShloMosaic.ValueIdx

variable (X : Vec Ideal S65536x64 .f32) (Y : Vec Ideal S65536 .i32) (Pp : Vec Ideal S2048x64 .f32) (L : Vec Ideal S2048 .i32)

theorem sq_apply (n : Fin 65536) (q : Fin 2048) :
    val_main_v13 (F := Ideal) X Pp (ix2 n q) = sqd (fun k => X (ix2 n k)) Pp q := by
  have e1 : ∀ k : Fin 64, idx_main_v1 (idx_main_v2 (idx_main_v6 (ix2 n q))) k = ix2 n k := fun k => funext fun a => Fin.ext (by
    match a with
    | ⟨0, _⟩ => rfl
    | ⟨1, _⟩ => rfl)
  have e2 : ∀ k : Fin 64, idx_main_v4 (idx_main_v5 (idx_main_v7 (ix2 n q))) k = ix2 q k := fun k => funext fun a => Fin.ext (by
    match a with
    | ⟨0, _⟩ => rfl
    | ⟨1, _⟩ => rfl)
  have e3 : ∀ k : Fin 64, lidx_main_v10 (ix2 n q) k = ix2 n k := fun k => funext fun a => Fin.ext (by
    match a with
    | ⟨0, _⟩ => rfl
    | ⟨1, _⟩ => rfl)
  have e4 : ∀ k : Fin 64, idx_main_v9 (ridx_main_v10 (ix2 n q) k) = ix2 q k := fun k => funext fun a => Fin.ext (by
    match a with
    | ⟨0, _⟩ => rfl
    | ⟨1, _⟩ => rfl)
  rw [val_main_v13_apply, val_main_v8_apply, val_main_v6_apply, val_main_v2_apply, val_main_v1_apply, val_main_v7_apply,
    val_main_v5_apply, val_main_v4_apply, val_main_v12_apply, val_main_v11_apply, val_main_v10_apply]
  simp only [val_main_v0_apply, val_main_v3_apply, val_main_v9_apply, val_main_cst_0_apply, val_main_cst_1_apply,
    val_main_cst_2_apply, e1, e2, e3, e4, Ideal.ofBits_def, Ideal.addf_def, Ideal.subf_def, Ideal.mulf_def,
    Ideal.ofBits_zero_f32, zero_add]
  unfold sqd
  rfl

theorem dist_apply (n : Fin 65536) (q : Fin 2048) :
    val_main_v16 (F := Ideal) X Pp (ix2 n q) = Glvq.dist (sqd (fun k => X (ix2 n k)) Pp q) := by
  rw [val_main_v16_apply, val_main_v15_apply, val_main_v14_apply, val_main_cst_3_apply, sq_apply]
  simp only [Ideal.hostUnary_sqrt_def, Ideal.maximumf_def, Ideal.ofBits_def]
  unfold Glvq.dist
  rfl

theorem same_apply (n : Fin 65536) (q : Fin 2048) :
    val_main_v21 (F := Ideal) Y L (ix2 n q) = same (Y (ix1 n)) L q := by
  have e1 : idx_main_v17 (idx_main_v19 (ix2 n q)) = ix1 q := funext fun a => Fin.ext (by
    match a with
    | ⟨0, _⟩ => rfl)
  have e2 : idx_main_v18 (idx_main_v20 (ix2 n q)) = ix1 n := funext fun a => Fin.ext (by
    match a with
    | ⟨0, _⟩ => rfl)
  rw [val_main_v21_apply, val_main_v19_apply, val_main_v17_apply, val_main_v20_apply, val_main_v18_apply, e1, e2]
  rfl

theorem pos_apply (n : Fin 65536) :
    val_main_v23 (F := Ideal) X Y Pp L (ix1 n) = posD (fun k => X (ix2 n k)) (Y (ix1 n)) Pp L := by
  unfold val_main_v23 posD
  refine (hostRowmin_apply _ _ reducesTo_S65536x2048_S65536_d1 (by decide) h_S_ n).trans ?_
  rw [val_main_cst_4_apply, Ideal.ofBits_def]
  refine congrArg (fun g => Finset.fold min infW g (Finset.univ : Finset (Fin 2048))) (funext fun q => ?_)
  rw [val_main_v22_apply, same_apply, dist_apply, val_main_call0_v0_apply, val_main_cst_apply, Ideal.ofBits_def]

theorem neg_apply (n : Fin 65536) :
    val_main_v26 (F := Ideal) X Y Pp L (ix1 n) = negD (fun k => X (ix2 n k)) (Y (ix1 n)) Pp L := by
  unfold val_main_v26 negD
  refine (hostRowmin_apply _ _ reducesTo_S65536x2048_S65536_d1 (by decide) h_S_ n).trans ?_
  rw [val_main_cst_5_apply, Ideal.ofBits_def]
  refine congrArg (fun g => Finset.fold min infW g (Finset.univ : Finset (Fin 2048))) (funext fun q => ?_)
  rw [val_main_v25_apply, val_main_v24_apply, same_apply, dist_apply, val_main_call1_v0_apply, val_main_cst_apply, Ideal.ofBits_def]

theorem loss_apply (n : Fin 65536) :
    val_main_v37 (F := Ideal) X Y Pp L (ix1 n) = rowLoss (fun k => X (ix2 n k)) (Y (ix1 n)) Pp L := by
  rw [val_main_v37_apply, val_main_v36_apply, val_main_cst_8_apply, val_main_v35_apply, val_main_v34_apply, val_main_cst_7_apply,
    val_main_v33_apply, val_main_v32_apply, val_main_v31_apply, val_main_v30_apply, val_main_cst_6_apply, val_main_v29_apply,
    val_main_v27_apply, val_main_v28_apply, pos_apply, neg_apply]
  simp only [Ideal.hostDivf_def, Ideal.addf_def, Ideal.hostUnary_exp_def, Ideal.hostNegf_def, Ideal.negf_def, Ideal.mulf_def,
    Ideal.subf_def, Ideal.ofBits_def]
  unfold rowLoss mu
  rfl

/-- The reference's result: the rows' losses added up from 0, over the row count. -/
theorem total_apply (i : S_.Idx) :
    val_main_v39 (F := Ideal) X Y Pp L i
      = Ideal.div (zeroW + ∑ j : S65536.Idx, val_main_v37 (F := Ideal) X Y Pp L j) (Ideal.ofBits .f32 0x47800000#32) := by
  rw [val_main_v39_apply, val_main_v38_apply, val_main_cst_10_apply, val_main_cst_9_apply]
  simp only [Ideal.hostDivf_def, Ideal.ofBits_def]

end Cert.ReferenceIdeal.RefRow

end
-- ==== Proof.Bridge.lean ====
/-
  The two idealized programs compute one number.

  The reference's result is 0 plus the sum over all 65536 rows of the row loss, divided by the value of the word 65536;
  the kernel program's is 0 plus the sum over all entries of its 64 tiles, divided by the same. Tile b holds in its
  corner the sum over block b's rows of the row loss in the kernel's order of operations, which is the row loss
  (the root of the clamped value is monotone and fixes +∞, so it may be taken after the masked minimum); the tiles'
  entries therefore add up to the sum over all rows, addition on the extended reals being commutative and associative.
-/
import proofs.«401977_j8624294330866_3_alg».proof.Proof.KernelRun
import proofs.«401977_j8624294330866_3_alg».proof.Proof.RefRow

noncomputable section

open scoped BigOperators

namespace Cert.Proof.Bridge

open Cert.Glvq Idealize.ShloMosaic Idealize.ShloMosaic.ValueIdx

theorem result_eq (X : Vec Ideal Cert.KernelIdeal.S65536x64 .f32) (Y : Vec Ideal Cert.KernelIdeal.S65536 .i32)
    (Pp : Vec Ideal Cert.KernelIdeal.S2048x64 .f32) (L : Vec Ideal Cert.KernelIdeal.S2048 .i32) :
    Cert.ReferenceIdeal.Read.val_main_v39 (F := Ideal) X Y Pp L = Cert.KernelIdeal.Hand.result X Y Pp L := by
  funext i
  rw [Cert.ReferenceIdeal.RefRow.total_apply, Cert.KernelIdeal.Hand.result_apply]
  refine congrArg (fun s => Ideal.div (zeroW + s) (Ideal.ofBits .f32 0x47800000#32)) ?_
  refine (total_eq (fun n => rowLoss (fun k => X (ix2 n k)) (Y (ix1 n)) Pp L) _ _ (fun a b c => ?_) (fun n => ?_)).symm
  · rw [Cert.KernelIdeal.Hand.tiles_apply]
    refine congrArg (fun s => tile s b c) (Finset.sum_congr rfl fun j _ => ?_)
    exact rowLossK_eq _ _ _ _
  · exact Cert.ReferenceIdeal.RefRow.loss_apply X Y Pp L n

end Cert.Proof.Bridge

end
-- ==== Proof.lean ====
/-
  The certificate: a prototype-based classification loss (GLVQ) computed by a tiled kernel against its plain reference.

  For each of 65536 sample rows both programs find the distance to the nearest prototype of the row's class and to the
  nearest prototype of any other class, form μ = (d⁺ − d⁻) / (d⁺ + d⁻), take the logistic of μ, and average over the
  rows. They differ in three ways, none of which changes the value on the extended reals. The kernel takes the masked
  minimum of the SQUARED distances and the root of the clamped minimum afterwards, filling the masked places with a named
  constant that denotes +∞ (the reference takes roots first and fills with +∞): the root of the clamped value is
  monotone and fixes +∞, so it commutes with the minimum. The kernel evaluates one logistic where the reference spells
  1 / (1 + e^(−1·μ)): that is the logistic function's definition. And the kernel adds the losses block by block into the
  corner of a tile and the host adds the tiles, where the reference adds all rows at once: a regrouping of one finite sum.
  The matrix product the kernel takes in a narrower float format is the same product here, a change of format being the
  identity. No step needs the inputs to be finite.

  The three frames are the generated ones (the reference's is its generated run with the result dropped); the two ledger
  entries both say that the named constant denotes +∞.
-/
import proofs.«401977_j8624294330866_3_alg».proof.Defs
import proofs.«401977_j8624294330866_3_alg».proof.Proof.Gen.Kernel
import proofs.«401977_j8624294330866_3_alg».proof.Proof.Gen.Kernel.Skeleton
import proofs.«401977_j8624294330866_3_alg».proof.Proof.Gen.Kernel.Launch
import proofs.«401977_j8624294330866_3_alg».proof.Proof.Gen.Kernel.Points
import proofs.«401977_j8624294330866_3_alg».proof.Proof.Gen.Kernel.Frame
import proofs.«401977_j8624294330866_3_alg».proof.Proof.Gen.KernelIdeal
import proofs.«401977_j8624294330866_3_alg».proof.Proof.Gen.KernelIdeal.Skeleton
import proofs.«401977_j8624294330866_3_alg».proof.Proof.Gen.KernelIdeal.Launch
import proofs.«401977_j8624294330866_3_alg».proof.Proof.Gen.KernelIdeal.Points
import proofs.«401977_j8624294330866_3_alg».proof.Proof.Gen.KernelIdeal.Frame
import proofs.«401977_j8624294330866_3_alg».proof.Proof.Gen.ReferenceIdeal
import proofs.«401977_j8624294330866_3_alg».proof.Proof.Gen.Pre_finite_inputs
import proofs.«401977_j8624294330866_3_alg».proof.Proof.Gen.ReferenceIdeal.Run
import proofs.«401977_j8624294330866_3_alg».proof.Proof.Gen.ReferenceIdeal.Read
import proofs.«401977_j8624294330866_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both ledger entries: the named constant denotes +∞. -/
theorem preserves : Cert.preserves_Kernel_KernelIdeal :=
  ⟨IdealRules.named_const.statement Cert.KernelIdeal.κ "pos_big" .f32 0x7149F2CA#32 ⊤ rfl,
    IdealRules.named_const.statement Cert.KernelIdeal.κ "pos_big" .f32 0x7149F2CA#32 ⊤ rfl⟩

/-- From memories that agree on the four arguments both idealized programs end with the same result. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2.1, (hagree c).2.2.2]
  exact Cert.Proof.Bridge.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
